-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x2048x128 .f32) (main_arg1 : FVec F S4x2048x2048 .f32) (main_arg2 : FVec F S128x128 .f32) (main_arg3 : FVec F S128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S1x128 : Shape := ⟨2, ![1, 128]⟩
abbrev S1x512x128 : Shape := ⟨3, ![1, 512, 128]⟩
abbrev S1x512x2048 : Shape := ⟨3, ![1, 512, 2048]⟩
abbrev S1x2048x128 : Shape := ⟨3, ![1, 2048, 128]⟩
abbrev S512x128 : Shape := ⟨2, ![512, 128]⟩
abbrev S512x2048 : Shape := ⟨2, ![512, 2048]⟩
abbrev S2048x128 : Shape := ⟨2, ![2048, 128]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S4x2048x128, .f32⟩
  | .local _ .vmem, ⟨0, _⟩ => ⟨S1x512x128, .f32⟩
  | .local _ .vmem, ⟨1, _⟩ => ⟨S1x512x128, .f32⟩
  | .local _ .vmem, ⟨2, _⟩ => ⟨S128x128, .f32⟩
  | .local _ .vmem, ⟨3, _⟩ => ⟨S1x512x2048, .f32⟩
  | .local _ .vmem, ⟨4, _⟩ => ⟨S1x512x2048, .f32⟩
  | .local _ .vmem, ⟨5, _⟩ => ⟨S1x128, .f32⟩
  | .local _ .vmem, ⟨6, _⟩ => ⟨S1x2048x128, .f32⟩
  | .local _ .vmem, ⟨7, _⟩ => ⟨S1x2048x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_8 : BitVec 32 := 0#32
  let v11 : BitVec 1 := Scalar.cmpi .ne v10 c0_i32_8
  v11

def k0_cond2 (i : grid0.Coords) : BitVec 1 :=
  let arg1 : BitVec 32 := BitVec.ofNat 32 (i 1).val
  let c0_i32_9 : BitVec 32 := 0#32
  let v12 : BitVec 1 := Scalar.cmpi .ne arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S512x128_S128x128_S512x128_1_0_0_1_n_n_wf : DotDims.WF S512x128 S128x128 S512x128 [1] [0] [0] [1] [] []
  dot_S512x2048_S512x128_S2048x128_0_0_1_1_n_n_wf : DotDims.WF S512x2048 S512x128 S2048x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x2048x128.size a
  hwx0_0 : ∀ i : grid0.Coords, EltTy.bits .f32 = 32 ∨ (Rect.block (s := S4x2048x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x2048x2048.size a
  hwx0_2 : ∀ i : grid0.Coords, EltTy.bits .f32 = 32 ∨ (Rect.block (s := S4x2048x2048) S1x512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S4x2048x128.size a
  hwx0_4 : ∀ i : grid0.Coords, EltTy.bits .f32 = 32 ∨ (Rect.block (s := S4x2048x128) S1x2048x128.size (cc0_transform_4 i) (hinb0_4 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x2048_S512x128_S2048x128_0_0_1_1_n_n : DotDims S512x2048 S512x128 S2048x128 where
  lhsContracting := [0]
  rhsContracting := [0]
  lhsNonContracting := [1]
  rhsNonContracting := [1]
  lhsBatch := []
  rhsBatch := []
  wf := dot_S512x2048_S512x128_S2048x128_0_0_1_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S1x1x128 : Shape := ⟨3, ![1, 1, 128]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .f32⟩
  | .hbm, ⟨2, _⟩ => ⟨S128x128, .f32⟩
  | .hbm, ⟨3, _⟩ => ⟨S128, .f32⟩
  | .hbm, ⟨4, _⟩ => ⟨S4x2048x128, .f32⟩
  | .hbm, ⟨5, _⟩ => ⟨S4x2048x128, .f32⟩
  | .hbm, ⟨6, _⟩ => ⟨S1x1x128, .f32⟩
  | .hbm, ⟨7, _⟩ => ⟨S4x2048x128, .f32⟩
  | .hbm, ⟨8, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  dot_S4x2048x128_S128x128_S4x2048x128_2_0_01_1_n_n_wf : DotDims.WF S4x2048x128 S128x128 S4x2048x128 [2] [0] [0, 1] [1] [] []
  dot_S4x2048x2048_S4x2048x128_S4x2048x128_1_1_2_2_0_0_wf : DotDims.WF S4x2048x2048 S4x2048x128 S4x2048x128 [1] [1] [2] [2] [0] [0]

variable [Facts₀]

def dot_S4x2048x128_S128x128_S4x2048x128_2_0_01_1_n_n : DotDims S4x2048x128 S128x128 S4x2048x128 where
  lhsContracting := [2]
  rhsContracting := [0]
  lhsNonContracting := [0, 1]
  rhsNonContracting := [1]
  lhsBatch := []
  rhsBatch := []
  wf := dot_S4x2048x128_S128x128_S4x2048x128_2_0_01_1_n_n_wf
def dot_S4x2048x2048_S4x2048x128_S4x2048x128_1_1_2_2_0_0 : DotDims S4x2048x2048 S4x2048x128 S4x2048x128 where
  lhsContracting := [1]
  rhsContracting := [1]
  lhsNonContracting := [2]
  rhsNonContracting := [2]
  lhsBatch := [0]
  rhsBatch := [0]
  wf := dot_S4x2048x2048_S4x2048x128_S4x2048x128_1_1_2_2_0_0_wf

class Facts : Prop extends Facts₀ where

variable [Facts]
-- ==== Proof.BitsRunFirst.lean ====
/-
  The body of the graph-convolution kernel at a grid point (b, j) with j = 0, the first row block of a batch:
  it loads the 512-row block of the features, the weight matrix, the 512-row block of the adjacency and the
  bias row, and STORES the whole 2048 x 128 output block with
      (adjacency block)ᵀ · (feature block · weight) + bias
  (the skeleton's payload `k0_pay2`); the second conditional (j ≠ 0) is not taken. Stated at any float
  instance, on any whole staging memrefs: the input buffers come back as they were, the output buffer with
  the stores the run made (found by unification: one whole-block piece).
-/
import proofs.«146435_g62397284876833_cont_9to1c4b_236_5_alg».proof.Proof.Gen.Kernel.Skeleton
import proofs.«146435_g62397284876833_cont_9to1c4b_236_5_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The run at the first row block of a batch: the pieces the output buffer ends with, and the triple. -/
noncomputable def runFirst (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : k0_cond1 i = 1#1) (hc2 : ¬ k0_cond2 i = 1#1)
    (x : Vec F S1x512x128 .f32) (w : Vec F S128x128 .f32) (a : Vec F S1x512x2048 .f32) (b : Vec F S1x128 .f32) :
    { L : List (View.Piece (Elt F) S1x2048x128 .f32) //
      ∀ (E : Set ℕ) (K : PUnit → sProp 𝕄),
        iprop(owns (c : Thread nD τ) arg2 fullShare x ∗ owns (c : Thread nD τ) arg3 fullShare w
            ∗ owns (c : Thread nD τ) arg4 fullShare a ∗ owns (c : Thread nD τ) arg5 fullShare b
            ∗ (∃ d, owns (c : Thread nD τ) arg6 fullShare d)
            ∗ (iprop(owns (c : Thread nD τ) arg2 fullShare x ∗ owns (c : Thread nD τ) arg3 fullShare w
                ∗ owns (c : Thread nD τ) arg4 fullShare a ∗ owns (c : Thread nD τ) arg5 fullShare b
                ∗ (∃ f, arg6.view.loc (c : Thread nD τ) ↦[arg6.view.set]{fullShare} arg6.view.writes (Elt F) f L)) -∗ K ⟨⟩))
          ⊢ wp frame (wpE (defs₀ (F := F)) Variants.none c none) E
              (cc0__gcn_body i arg2 harg2 arg3 harg3 arg4 harg4 arg5 harg5 arg6 harg6) K } := by
  refine ⟨?_, fun E K => ?run⟩
  case run =>
    simp only [cc0__gcn_body_eq_skeleton]; unfold cc0__gcn_body_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3
    obtain rfl := harg4.eq_unread hf4; obtain rfl := harg5.eq_unread hf5
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

end Cert.Kernel.Body

end
-- ==== Proof.BitsRunLater.lean ====
/-
  The body of the graph-convolution kernel at a grid point (b, j) with j ≠ 0, a later row block of a batch:
  the first conditional (j = 0) is not taken; it loads the feature block, the weight matrix and the adjacency
  block, READS BACK the 2048 x 128 output block the point before left, and stores
      (what was there) + (adjacency block)ᵀ · (feature block · weight)
  (the skeleton's payload `k0_pay3`). The bias row's buffer is not touched and passes through. Stated at any
  float instance, on any whole staging memrefs.
-/
import proofs.«146435_g62397284876833_cont_9to1c4b_236_5_alg».proof.Proof.Gen.Kernel.Skeleton
import proofs.«146435_g62397284876833_cont_9to1c4b_236_5_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The run at a later row block of a batch: the pieces the output buffer ends with, and the triple. -/
noncomputable def runLater (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : ¬ k0_cond1 i = 1#1) (hc2 : k0_cond2 i = 1#1)
    (x : Vec F S1x512x128 .f32) (w : Vec F S128x128 .f32) (a : Vec F S1x512x2048 .f32) (b : Vec F S1x128 .f32)
    (prev : Vec F S1x2048x128 .f32) :
    { L : List (View.Piece (Elt F) S1x2048x128 .f32) //
      ∀ (E : Set ℕ) (K : PUnit → sProp 𝕄),
        iprop(owns (c : Thread nD τ) arg2 fullShare x ∗ owns (c : Thread nD τ) arg3 fullShare w
            ∗ owns (c : Thread nD τ) arg4 fullShare a ∗ owns (c : Thread nD τ) arg5 fullShare b
            ∗ owns (c : Thread nD τ) arg6 fullShare prev
            ∗ (iprop(owns (c : Thread nD τ) arg2 fullShare x ∗ owns (c : Thread nD τ) arg3 fullShare w
                ∗ owns (c : Thread nD τ) arg4 fullShare a ∗ owns (c : Thread nD τ) arg5 fullShare b
                ∗ (∃ f, arg6.view.loc (c : Thread nD τ) ↦[arg6.view.set]{fullShare} arg6.view.writes (Elt F) f L)) -∗ K ⟨⟩))
          ⊢ wp frame (wpE (defs₀ (F := F)) Variants.none c none) E
              (cc0__gcn_body i arg2 harg2 arg3 harg3 arg4 harg4 arg5 harg5 arg6 harg6) K } := by
  refine ⟨?_, fun E K => ?run⟩
  case run =>
    simp only [cc0__gcn_body_eq_skeleton]; unfold cc0__gcn_body_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3
    obtain rfl := harg4.eq_unread hf4; obtain rfl := harg5.eq_unread hf5
    obtain rfl := harg6.eq_unread hf6
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

end Cert.Kernel.Body

end
-- ==== Proof.BitsFrame.lean ====
/-
  The frame of the graph-convolution kernel's program: every weakly fair execution terminates, nothing faults, and the
  four argument arrays end as they began.

  The grid has 16 points t = 4·b + j (batch b, row block j). The 2048 x 128 output block of batch b stays in one
  staging buffer over the four points of the batch: at j = 0 the body overwrites it whole, at j = 1, 2, 3 it reads it
  back and adds to it, and only after j = 3 is it written back to the array. So what the buffer holds after point t
  (`accAt`) is defined by recursion on t: the first-block run's result at t ≡ 0 (mod 4), else the later-block run's
  result over what point t - 1 left. The two conditionals of the body are complementary (j = 0 or j ≠ 0), so the output
  window is stored into at every point; each input window's buffer holds its block of the array at every point.
-/
import proofs.«146435_g62397284876833_cont_9to1c4b_236_5_alg».proof.Proof.BitsRunFirst
import proofs.«146435_g62397284876833_cont_9to1c4b_236_5_alg».proof.Proof.BitsRunLater

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which conditional a point takes -/

/-- The first conditional (j = 0) is taken exactly at the points t ≡ 0 (mod 4): decided over the grid. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second conditional (j ≠ 0) is taken exactly at the other points. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- At every grid coordinate one of the two conditionals is taken (j = 0 or j ≠ 0), so the body always stores into the
    output window: it is idle nowhere. -/
theorem out_live : ∀ i : grid0.Coords, cfg0.idle 4 i = false := by
  intro i
  show (!(k0_cond1 i == 1#1) && !(k0_cond2 i == 1#1)) = false
  unfold k0_cond1 k0_cond2
  generalize (i 1) = j
  revert j
  decide

/-! ## The staging memrefs at a point -/

abbrev mx (t : Fin cfg0.N) : Memref sig .tc .vmem S1x512x128 .f32 := win0_0.stage (cfg0.slots t 0)
abbrev hx (t : Fin cfg0.N) : (mx t).IsWhole := hstage0_0 ((cfg0.slots t 0).cast nbuf0_0)
abbrev mw (t : Fin cfg0.N) : Memref sig .tc .vmem S128x128 .f32 := win0_1.stage (cfg0.slots t 1)
abbrev hw (t : Fin cfg0.N) : (mw t).IsWhole := hstage0_1 ((cfg0.slots t 1).cast nbuf0_1)
abbrev ma (t : Fin cfg0.N) : Memref sig .tc .vmem S1x512x2048 .f32 := win0_2.stage (cfg0.slots t 2)
abbrev ha (t : Fin cfg0.N) : (ma t).IsWhole := hstage0_2 ((cfg0.slots t 2).cast nbuf0_2)
abbrev mb (t : Fin cfg0.N) : Memref sig .tc .vmem S1x128 .f32 := win0_3.stage (cfg0.slots t 3)
abbrev hb (t : Fin cfg0.N) : (mb t).IsWhole := hstage0_3 ((cfg0.slots t 3).cast nbuf0_3)
abbrev mo (t : Fin cfg0.N) : Memref sig .tc .vmem S1x2048x128 .f32 := win0_4.stage (cfg0.slots t 4)
abbrev ho (t : Fin cfg0.N) : (mo t).IsWhole := hstage0_4 ((cfg0.slots t 4).cast nbuf0_4)

/-- One staging buffer of the output window, through which its contents are read back (the choice does not matter). -/
abbrev outView : View sig .tc .vmem S1x2048x128 .f32 := (Memref.whole cc0_stg4_0 : Memref sig .tc .vmem S1x2048x128 .f32).view

/-! ## What each run leaves in the output buffer -/

/-- The first-block run's stores cover the output block. -/
theorem cover_first (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : k0_cond1 i = 1#1) (hc2 : ¬ k0_cond2 i = 1#1)
    (x : Vec F S1x512x128 .f32) (w : Vec F S128x128 .f32) (a : Vec F S1x512x2048 .f32) (b : Vec F S1x128 .f32)
    (y : S1x2048x128.Idx) :
    ∃ pc ∈ (runFirst c i arg2 harg2 arg3 harg3 arg4 harg4 arg5 harg5 arg6 harg6 hc1 hc2 x w a b).1, y ∈ pc.1.set :=
  View.cover_of_tiledL (runFirst c i arg2 harg2 arg3 harg3 arg4 harg4 arg5 harg5 arg6 harg6 hc1 hc2 x w a b).1 S1x2048x128.size (by sl_kernel_rfl) y

/-- What the first-block run leaves in the output buffer: its stores read back. -/
def outFirst (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : k0_cond1 i = 1#1) (hc2 : ¬ k0_cond2 i = 1#1)
    (x : Vec F S1x512x128 .f32) (w : Vec F S128x128 .f32) (a : Vec F S1x512x2048 .f32) (b : Vec F S1x128 .f32) :
    Vec F S1x2048x128 .f32 :=
  outView.read (Elt F) (outView.writes (Elt F) outView.junk (runFirst c i arg2 harg2 arg3 harg3 arg4 harg4 arg5 harg5 arg6 harg6 hc1 hc2 x w a b).1)

/-- The later-block run's stores cover the output block. -/
theorem cover_later (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : ¬ k0_cond1 i = 1#1) (hc2 : k0_cond2 i = 1#1)
    (x : Vec F S1x512x128 .f32) (w : Vec F S128x128 .f32) (a : Vec F S1x512x2048 .f32) (b : Vec F S1x128 .f32)
    (prev : Vec F S1x2048x128 .f32) (y : S1x2048x128.Idx) :
    ∃ pc ∈ (runLater c i arg2 harg2 arg3 harg3 arg4 harg4 arg5 harg5 arg6 harg6 hc1 hc2 x w a b prev).1, y ∈ pc.1.set :=
  View.cover_of_tiledL (runLater c i arg2 harg2 arg3 harg3 arg4 harg4 arg5 harg5 arg6 harg6 hc1 hc2 x w a b prev).1 S1x2048x128.size (by sl_kernel_rfl) y

/-- What the later-block run leaves in the output buffer: its stores read back. -/
def outLater (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : ¬ k0_cond1 i = 1#1) (hc2 : k0_cond2 i = 1#1)
    (x : Vec F S1x512x128 .f32) (w : Vec F S128x128 .f32) (a : Vec F S1x512x2048 .f32) (b : Vec F S1x128 .f32)
    (prev : Vec F S1x2048x128 .f32) : Vec F S1x2048x128 .f32 :=
  outView.read (Elt F) (outView.writes (Elt F) outView.junk (runLater c i arg2 harg2 arg3 harg3 arg4 harg4 arg5 harg5 arg6 harg6 hc1 hc2 x w a b prev).1)

/-! ## The output buffer, point by point -/

/-- THE ACCUMULATION: what the output window's staging buffer holds after the body at point `n`. -/
def accAt (c : Dev nD) : (n : ℕ) → n < cfg0.N → Vec F S1x2048x128 .f32
  | 0, hn => outFirst c (grid0.coords ⟨0, hn⟩) (mx ⟨0, hn⟩) (hx ⟨0, hn⟩) (mw ⟨0, hn⟩) (hw ⟨0, hn⟩) (ma ⟨0, hn⟩) (ha ⟨0, hn⟩) (mb ⟨0, hn⟩) (hb ⟨0, hn⟩) (mo ⟨0, hn⟩) (ho ⟨0, hn⟩)
      ((first_iff ⟨0, hn⟩).mpr (Nat.zero_mod _)) (fun h => (later_iff ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      outFirst c (grid0.coords ⟨n + 1, hn⟩) (mx ⟨n + 1, hn⟩) (hx ⟨n + 1, hn⟩) (mw ⟨n + 1, hn⟩) (hw ⟨n + 1, hn⟩) (ma ⟨n + 1, hn⟩) (ha ⟨n + 1, hn⟩) (mb ⟨n + 1, hn⟩) (hb ⟨n + 1, hn⟩) (mo ⟨n + 1, hn⟩) (ho ⟨n + 1, hn⟩)
        ((first_iff ⟨n + 1, hn⟩).mpr h0) (fun h => (later_iff ⟨n + 1, hn⟩).mp h h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (mx ⟨n + 1, hn⟩) (hx ⟨n + 1, hn⟩) (mw ⟨n + 1, hn⟩) (hw ⟨n + 1, hn⟩) (ma ⟨n + 1, hn⟩) (ha ⟨n + 1, hn⟩) (mb ⟨n + 1, hn⟩) (hb ⟨n + 1, hn⟩) (mo ⟨n + 1, hn⟩) (ho ⟨n + 1, hn⟩)
        (fun h => h0 ((first_iff ⟨n + 1, hn⟩).mp h)) ((later_iff ⟨n + 1, hn⟩).mpr h0) (iblk m c 0 ⟨n + 1, hn⟩) (iblk m c 1 ⟨n + 1, hn⟩) (iblk m c 2 ⟨n + 1, hn⟩) (iblk m c 3 ⟨n + 1, hn⟩)
        (accAt c n (Nat.lt_of_succ_lt hn))

/-- `accAt` at the first point of a batch: the first-block run's result. -/
theorem accAt_first (c : Dev nD) (t : Fin cfg0.N) (h0 : t.val % 4 = 0) :
    accAt m c t.val t.isLt = outFirst c (grid0.coords t) (mx t) (hx t) (mw t) (hw t) (ma t) (ha t) (mb t) (hb t) (mo t) (ho t)
      ((first_iff t).mpr h0) (fun h => (later_iff t).mp h h0) (iblk m c 0 t) (iblk m c 1 t) (iblk m c 2 t) (iblk m c 3 t) := by
  obtain ⟨n, hn⟩ := t
  cases n with
  | zero => exact rfl
  | succ n => exact (dif_pos h0).trans rfl

/-- `accAt` at a later point of a batch: the later-block run's result over what the point before left. -/
theorem accAt_later (c : Dev nD) (t : Fin cfg0.N) (h0 : ¬ t.val % 4 = 0) :
    accAt m c t.val t.isLt = outLater c (grid0.coords t) (mx t) (hx t) (mw t) (hw t) (ma t) (ha t) (mb t) (hb t) (mo t) (ho t)
      (fun h => h0 ((first_iff t).mp h)) ((later_iff t).mpr h0) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block of the array and the output's at `accAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_a (c : Dev nD) (t : Fin cfg0.N) : (dats m 0 c).after 2 t = iblk m c 2 t := by dsimp only [dats]
theorem after_b (c : Dev nD) (t : Fin cfg0.N) : (dats m 0 c).after 3 t = iblk m c 3 t := by dsimp only [dats]
theorem after_o (c : Dev nD) (t : Fin cfg0.N) : (dats m 0 c).after 4 t = accAt m c t.val t.isLt := by dsimp only [dats]

/-- Each input's current staging buffer holds its block of the array at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_a (c : Dev nD) (t : Fin cfg0.N) (d) : (dats m 0 c).before 2 t d = iblk m c 2 t :=
  before0_2_of m (dats m 0 c) (A_eq m c 2) (after_a m c) t d
theorem before_b (c : Dev nD) (t : Fin cfg0.N) (d) : (dats m 0 c).before 3 t d = iblk m c 3 t :=
  before0_3_of m (dats m 0 c) (A_eq m c 3) (after_b m c) t d

/-- At a later point of a batch the output's current staging buffer holds what the body left at the point before: the
    point is not the first, the buffer was not written back between (write-backs happen after t ≡ 3 only), and the window is
    never idle and uncut. -/
theorem before_o_later (c : Dev nD) (t : Fin cfg0.N) (h0 : ¬ t.val % 4 = 0) (d) :
    (dats m 0 c).before 4 t d = accAt m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    out_live (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mw t) fullShare ((dats m 0 c).before 1 t d))
    ∗ (∃ d, owns (c : Thread nD τ) (ma t) fullShare ((dats m 0 c).before 2 t d))
    ∗ (∃ d, owns (c : Thread nD τ) (mb t) fullShare ((dats m 0 c).before 3 t d))
    ∗ (∃ d, owns (c : Thread nD τ) (mo t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (mx t) fullShare ((dats m 0 c).after 0 t)
    ∗ owns (c : Thread nD τ) (mw t) fullShare ((dats m 0 c).after 1 t)
    ∗ owns (c : Thread nD τ) (ma t) fullShare ((dats m 0 c).after 2 t)
    ∗ owns (c : Thread nD τ) (mb t) fullShare ((dats m 0 c).after 3 t)
    ∗ owns (c : Thread nD τ) (mo t) fullShare ((dats m 0 c).after 4 t))

set_option maxHeartbeats 800000 in
/-- The body at any point: the inputs' memrefs hold their blocks; the closed forms say which run the point is; at a
    later point the output's memref holds what the point before left; so the run applies, and its stores read back are
    `accAt` there. The invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_a, before_b]
  rw [show (dats m 0 c).Φ t.succ = (dats m 0 c).Φ t.castSucc from rfl,
    show (dats m 0 c).owesAt () t.succ = (dats m 0 c).owesAt () t.castSucc from rfl,
    after_x, after_w, after_a, after_b, after_o]
  by_cases h0 : t.val % 4 = 0
  · rw [accAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => (later_iff t).mp h h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first c _ _ _ _ _ _ _ _ _ _ _ _ _ _ _ _ _)
  · rw [accAt_later m c t h0]
    simp only [before_o_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) ((later_iff t).mpr h0)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_later c _ _ _ _ _ _ _ _ _ _ _ _ _ _ _ _ _ _)

end Cert.Kernel.Body

end
-- ==== Proof.BitsLaunch.lean ====
/-
  The body obligation of the graph-convolution kernel's pipeline at every point, the frame run and the frame: the
  windows of the obligation are opened one by one, the output window is live at the point (one of the two
  complementary conditionals is taken), and the body's triple at a generic point closes it.
-/
import proofs.«146435_g62397284876833_cont_9to1c4b_236_5_alg».proof.Proof.BitsFrame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: the windows opened one by one, the output window live there. -/
theorem body_obligation (c : Dev nD) : BodyObligation (dats (F := F) m 0 c) (defs₀ (F := F)) Variants.none () Set.univ := fun t => by
  rw [bigSep_W0, bigSep_W0]
  have hl : idle0 4 (grid0.coords t) = false := out_live _
  simp only [hl]
  exact sound_body m c t

/-! ## The run and the frame -/

set_option backward.isDefEq.respectTransparency.types false in
/-- From any memory with zero counters every weakly fair execution of the program terminates, and every final state has
    every array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any float instance: the program runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealRunFirst.lean ====
/-
  The body of the graph-convolution kernel at a grid point (b, j) with j = 0, the first row block of a batch:
  it loads the 512-row block of the features, the weight matrix, the 512-row block of the adjacency and the
  bias row, and STORES the whole 2048 x 128 output block with
      (adjacency block)ᵀ · (feature block · weight) + bias
  (the skeleton's payload `k0_pay2`); the second conditional (j ≠ 0) is not taken. Stated at any float
  instance, on any whole staging memrefs: the input buffers come back as they were, the output buffer with
  the stores the run made (found by unification: one whole-block piece).
-/
import proofs.«146435_g62397284876833_cont_9to1c4b_236_5_alg».proof.Proof.Gen.KernelIdeal.Skeleton
import proofs.«146435_g62397284876833_cont_9to1c4b_236_5_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at the first row block of a batch: the pieces the output buffer ends with, and the triple. -/
noncomputable def runFirst (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : k0_cond1 i = 1#1) (hc2 : ¬ k0_cond2 i = 1#1)
    (x : Vec F S1x512x128 .f32) (w : Vec F S128x128 .f32) (a : Vec F S1x512x2048 .f32) (b : Vec F S1x128 .f32) :
    { L : List (View.Piece (Elt F) S1x2048x128 .f32) //
      ∀ (E : Set ℕ) (K : PUnit → sProp 𝕄),
        iprop(owns (c : Thread nD τ) arg2 fullShare x ∗ owns (c : Thread nD τ) arg3 fullShare w
            ∗ owns (c : Thread nD τ) arg4 fullShare a ∗ owns (c : Thread nD τ) arg5 fullShare b
            ∗ (∃ d, owns (c : Thread nD τ) arg6 fullShare d)
            ∗ (iprop(owns (c : Thread nD τ) arg2 fullShare x ∗ owns (c : Thread nD τ) arg3 fullShare w
                ∗ owns (c : Thread nD τ) arg4 fullShare a ∗ owns (c : Thread nD τ) arg5 fullShare b
                ∗ (∃ f, arg6.view.loc (c : Thread nD τ) ↦[arg6.view.set]{fullShare} arg6.view.writes (Elt F) f L)) -∗ K ⟨⟩))
          ⊢ wp frame (wpE (defs₀ (F := F)) Variants.none c none) E
              (cc0__gcn_body i arg2 harg2 arg3 harg3 arg4 harg4 arg5 harg5 arg6 harg6) K } := by
  refine ⟨?_, fun E K => ?run⟩
  case run =>
    simp only [cc0__gcn_body_eq_skeleton]; unfold cc0__gcn_body_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3
    obtain rfl := harg4.eq_unread hf4; obtain rfl := harg5.eq_unread hf5
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

end Cert.KernelIdeal.Body

end
-- ==== Proof.IdealRunLater.lean ====
/-
  The body of the graph-convolution kernel at a grid point (b, j) with j ≠ 0, a later row block of a batch:
  the first conditional (j = 0) is not taken; it loads the feature block, the weight matrix and the adjacency
  block, READS BACK the 2048 x 128 output block the point before left, and stores
      (what was there) + (adjacency block)ᵀ · (feature block · weight)
  (the skeleton's payload `k0_pay3`). The bias row's buffer is not touched and passes through. Stated at any
  float instance, on any whole staging memrefs.
-/
import proofs.«146435_g62397284876833_cont_9to1c4b_236_5_alg».proof.Proof.Gen.KernelIdeal.Skeleton
import proofs.«146435_g62397284876833_cont_9to1c4b_236_5_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at a later row block of a batch: the pieces the output buffer ends with, and the triple. -/
noncomputable def runLater (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : ¬ k0_cond1 i = 1#1) (hc2 : k0_cond2 i = 1#1)
    (x : Vec F S1x512x128 .f32) (w : Vec F S128x128 .f32) (a : Vec F S1x512x2048 .f32) (b : Vec F S1x128 .f32)
    (prev : Vec F S1x2048x128 .f32) :
    { L : List (View.Piece (Elt F) S1x2048x128 .f32) //
      ∀ (E : Set ℕ) (K : PUnit → sProp 𝕄),
        iprop(owns (c : Thread nD τ) arg2 fullShare x ∗ owns (c : Thread nD τ) arg3 fullShare w
            ∗ owns (c : Thread nD τ) arg4 fullShare a ∗ owns (c : Thread nD τ) arg5 fullShare b
            ∗ owns (c : Thread nD τ) arg6 fullShare prev
            ∗ (iprop(owns (c : Thread nD τ) arg2 fullShare x ∗ owns (c : Thread nD τ) arg3 fullShare w
                ∗ owns (c : Thread nD τ) arg4 fullShare a ∗ owns (c : Thread nD τ) arg5 fullShare b
                ∗ (∃ f, arg6.view.loc (c : Thread nD τ) ↦[arg6.view.set]{fullShare} arg6.view.writes (Elt F) f L)) -∗ K ⟨⟩))
          ⊢ wp frame (wpE (defs₀ (F := F)) Variants.none c none) E
              (cc0__gcn_body i arg2 harg2 arg3 harg3 arg4 harg4 arg5 harg5 arg6 harg6) K } := by
  refine ⟨?_, fun E K => ?run⟩
  case run =>
    simp only [cc0__gcn_body_eq_skeleton]; unfold cc0__gcn_body_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3
    obtain rfl := harg4.eq_unread hf4; obtain rfl := harg5.eq_unread hf5
    obtain rfl := harg6.eq_unread hf6
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

end Cert.KernelIdeal.Body

end
-- ==== Proof.IdealFrame.lean ====
/-
  The frame of the graph-convolution kernel's program: every weakly fair execution terminates, nothing faults, and the
  four argument arrays end as they began.

  The grid has 16 points t = 4·b + j (batch b, row block j). The 2048 x 128 output block of batch b stays in one
  staging buffer over the four points of the batch: at j = 0 the body overwrites it whole, at j = 1, 2, 3 it reads it
  back and adds to it, and only after j = 3 is it written back to the array. So what the buffer holds after point t
  (`accAt`) is defined by recursion on t: the first-block run's result at t ≡ 0 (mod 4), else the later-block run's
  result over what point t - 1 left. The two conditionals of the body are complementary (j = 0 or j ≠ 0), so the output
  window is stored into at every point; each input window's buffer holds its block of the array at every point.
-/
import proofs.«146435_g62397284876833_cont_9to1c4b_236_5_alg».proof.Proof.IdealRunFirst
import proofs.«146435_g62397284876833_cont_9to1c4b_236_5_alg».proof.Proof.IdealRunLater

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which conditional a point takes -/

/-- The first conditional (j = 0) is taken exactly at the points t ≡ 0 (mod 4): decided over the grid. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second conditional (j ≠ 0) is taken exactly at the other points. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- At every grid coordinate one of the two conditionals is taken (j = 0 or j ≠ 0), so the body always stores into the
    output window: it is idle nowhere. -/
theorem out_live : ∀ i : grid0.Coords, cfg0.idle 4 i = false := by
  intro i
  show (!(k0_cond1 i == 1#1) && !(k0_cond2 i == 1#1)) = false
  unfold k0_cond1 k0_cond2
  generalize (i 1) = j
  revert j
  decide

/-! ## The staging memrefs at a point -/

abbrev mx (t : Fin cfg0.N) : Memref sig .tc .vmem S1x512x128 .f32 := win0_0.stage (cfg0.slots t 0)
abbrev hx (t : Fin cfg0.N) : (mx t).IsWhole := hstage0_0 ((cfg0.slots t 0).cast nbuf0_0)
abbrev mw (t : Fin cfg0.N) : Memref sig .tc .vmem S128x128 .f32 := win0_1.stage (cfg0.slots t 1)
abbrev hw (t : Fin cfg0.N) : (mw t).IsWhole := hstage0_1 ((cfg0.slots t 1).cast nbuf0_1)
abbrev ma (t : Fin cfg0.N) : Memref sig .tc .vmem S1x512x2048 .f32 := win0_2.stage (cfg0.slots t 2)
abbrev ha (t : Fin cfg0.N) : (ma t).IsWhole := hstage0_2 ((cfg0.slots t 2).cast nbuf0_2)
abbrev mb (t : Fin cfg0.N) : Memref sig .tc .vmem S1x128 .f32 := win0_3.stage (cfg0.slots t 3)
abbrev hb (t : Fin cfg0.N) : (mb t).IsWhole := hstage0_3 ((cfg0.slots t 3).cast nbuf0_3)
abbrev mo (t : Fin cfg0.N) : Memref sig .tc .vmem S1x2048x128 .f32 := win0_4.stage (cfg0.slots t 4)
abbrev ho (t : Fin cfg0.N) : (mo t).IsWhole := hstage0_4 ((cfg0.slots t 4).cast nbuf0_4)

/-- One staging buffer of the output window, through which its contents are read back (the choice does not matter). -/
abbrev outView : View sig .tc .vmem S1x2048x128 .f32 := (Memref.whole cc0_stg4_0 : Memref sig .tc .vmem S1x2048x128 .f32).view

/-! ## What each run leaves in the output buffer -/

/-- The first-block run's stores cover the output block. -/
theorem cover_first (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : k0_cond1 i = 1#1) (hc2 : ¬ k0_cond2 i = 1#1)
    (x : Vec F S1x512x128 .f32) (w : Vec F S128x128 .f32) (a : Vec F S1x512x2048 .f32) (b : Vec F S1x128 .f32)
    (y : S1x2048x128.Idx) :
    ∃ pc ∈ (runFirst c i arg2 harg2 arg3 harg3 arg4 harg4 arg5 harg5 arg6 harg6 hc1 hc2 x w a b).1, y ∈ pc.1.set :=
  View.cover_of_tiledL (runFirst c i arg2 harg2 arg3 harg3 arg4 harg4 arg5 harg5 arg6 harg6 hc1 hc2 x w a b).1 S1x2048x128.size (by sl_kernel_rfl) y

/-- What the first-block run leaves in the output buffer: its stores read back. -/
def outFirst (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : k0_cond1 i = 1#1) (hc2 : ¬ k0_cond2 i = 1#1)
    (x : Vec F S1x512x128 .f32) (w : Vec F S128x128 .f32) (a : Vec F S1x512x2048 .f32) (b : Vec F S1x128 .f32) :
    Vec F S1x2048x128 .f32 :=
  outView.read (Elt F) (outView.writes (Elt F) outView.junk (runFirst c i arg2 harg2 arg3 harg3 arg4 harg4 arg5 harg5 arg6 harg6 hc1 hc2 x w a b).1)

/-- The later-block run's stores cover the output block. -/
theorem cover_later (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : ¬ k0_cond1 i = 1#1) (hc2 : k0_cond2 i = 1#1)
    (x : Vec F S1x512x128 .f32) (w : Vec F S128x128 .f32) (a : Vec F S1x512x2048 .f32) (b : Vec F S1x128 .f32)
    (prev : Vec F S1x2048x128 .f32) (y : S1x2048x128.Idx) :
    ∃ pc ∈ (runLater c i arg2 harg2 arg3 harg3 arg4 harg4 arg5 harg5 arg6 harg6 hc1 hc2 x w a b prev).1, y ∈ pc.1.set :=
  View.cover_of_tiledL (runLater c i arg2 harg2 arg3 harg3 arg4 harg4 arg5 harg5 arg6 harg6 hc1 hc2 x w a b prev).1 S1x2048x128.size (by sl_kernel_rfl) y

/-- What the later-block run leaves in the output buffer: its stores read back. -/
def outLater (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : ¬ k0_cond1 i = 1#1) (hc2 : k0_cond2 i = 1#1)
    (x : Vec F S1x512x128 .f32) (w : Vec F S128x128 .f32) (a : Vec F S1x512x2048 .f32) (b : Vec F S1x128 .f32)
    (prev : Vec F S1x2048x128 .f32) : Vec F S1x2048x128 .f32 :=
  outView.read (Elt F) (outView.writes (Elt F) outView.junk (runLater c i arg2 harg2 arg3 harg3 arg4 harg4 arg5 harg5 arg6 harg6 hc1 hc2 x w a b prev).1)

/-! ## The output buffer, point by point -/

/-- THE ACCUMULATION: what the output window's staging buffer holds after the body at point `n`. -/
def accAt (c : Dev nD) : (n : ℕ) → n < cfg0.N → Vec F S1x2048x128 .f32
  | 0, hn => outFirst c (grid0.coords ⟨0, hn⟩) (mx ⟨0, hn⟩) (hx ⟨0, hn⟩) (mw ⟨0, hn⟩) (hw ⟨0, hn⟩) (ma ⟨0, hn⟩) (ha ⟨0, hn⟩) (mb ⟨0, hn⟩) (hb ⟨0, hn⟩) (mo ⟨0, hn⟩) (ho ⟨0, hn⟩)
      ((first_iff ⟨0, hn⟩).mpr (Nat.zero_mod _)) (fun h => (later_iff ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      outFirst c (grid0.coords ⟨n + 1, hn⟩) (mx ⟨n + 1, hn⟩) (hx ⟨n + 1, hn⟩) (mw ⟨n + 1, hn⟩) (hw ⟨n + 1, hn⟩) (ma ⟨n + 1, hn⟩) (ha ⟨n + 1, hn⟩) (mb ⟨n + 1, hn⟩) (hb ⟨n + 1, hn⟩) (mo ⟨n + 1, hn⟩) (ho ⟨n + 1, hn⟩)
        ((first_iff ⟨n + 1, hn⟩).mpr h0) (fun h => (later_iff ⟨n + 1, hn⟩).mp h h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (mx ⟨n + 1, hn⟩) (hx ⟨n + 1, hn⟩) (mw ⟨n + 1, hn⟩) (hw ⟨n + 1, hn⟩) (ma ⟨n + 1, hn⟩) (ha ⟨n + 1, hn⟩) (mb ⟨n + 1, hn⟩) (hb ⟨n + 1, hn⟩) (mo ⟨n + 1, hn⟩) (ho ⟨n + 1, hn⟩)
        (fun h => h0 ((first_iff ⟨n + 1, hn⟩).mp h)) ((later_iff ⟨n + 1, hn⟩).mpr h0) (iblk m c 0 ⟨n + 1, hn⟩) (iblk m c 1 ⟨n + 1, hn⟩) (iblk m c 2 ⟨n + 1, hn⟩) (iblk m c 3 ⟨n + 1, hn⟩)
        (accAt c n (Nat.lt_of_succ_lt hn))

/-- `accAt` at the first point of a batch: the first-block run's result. -/
theorem accAt_first (c : Dev nD) (t : Fin cfg0.N) (h0 : t.val % 4 = 0) :
    accAt m c t.val t.isLt = outFirst c (grid0.coords t) (mx t) (hx t) (mw t) (hw t) (ma t) (ha t) (mb t) (hb t) (mo t) (ho t)
      ((first_iff t).mpr h0) (fun h => (later_iff t).mp h h0) (iblk m c 0 t) (iblk m c 1 t) (iblk m c 2 t) (iblk m c 3 t) := by
  obtain ⟨n, hn⟩ := t
  cases n with
  | zero => exact rfl
  | succ n => exact (dif_pos h0).trans rfl

/-- `accAt` at a later point of a batch: the later-block run's result over what the point before left. -/
theorem accAt_later (c : Dev nD) (t : Fin cfg0.N) (h0 : ¬ t.val % 4 = 0) :
    accAt m c t.val t.isLt = outLater c (grid0.coords t) (mx t) (hx t) (mw t) (hw t) (ma t) (ha t) (mb t) (hb t) (mo t) (ho t)
      (fun h => h0 ((first_iff t).mp h)) ((later_iff t).mpr h0) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block of the array and the output's at `accAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_a (c : Dev nD) (t : Fin cfg0.N) : (dats m 0 c).after 2 t = iblk m c 2 t := by dsimp only [dats]
theorem after_b (c : Dev nD) (t : Fin cfg0.N) : (dats m 0 c).after 3 t = iblk m c 3 t := by dsimp only [dats]
theorem after_o (c : Dev nD) (t : Fin cfg0.N) : (dats m 0 c).after 4 t = accAt m c t.val t.isLt := by dsimp only [dats]

/-- Each input's current staging buffer holds its block of the array at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_a (c : Dev nD) (t : Fin cfg0.N) (d) : (dats m 0 c).before 2 t d = iblk m c 2 t :=
  before0_2_of m (dats m 0 c) (A_eq m c 2) (after_a m c) t d
theorem before_b (c : Dev nD) (t : Fin cfg0.N) (d) : (dats m 0 c).before 3 t d = iblk m c 3 t :=
  before0_3_of m (dats m 0 c) (A_eq m c 3) (after_b m c) t d

/-- At a later point of a batch the output's current staging buffer holds what the body left at the point before: the
    point is not the first, the buffer was not written back between (write-backs happen after t ≡ 3 only), and the window is
    never idle and uncut. -/
theorem before_o_later (c : Dev nD) (t : Fin cfg0.N) (h0 : ¬ t.val % 4 = 0) (d) :
    (dats m 0 c).before 4 t d = accAt m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    out_live (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mw t) fullShare ((dats m 0 c).before 1 t d))
    ∗ (∃ d, owns (c : Thread nD τ) (ma t) fullShare ((dats m 0 c).before 2 t d))
    ∗ (∃ d, owns (c : Thread nD τ) (mb t) fullShare ((dats m 0 c).before 3 t d))
    ∗ (∃ d, owns (c : Thread nD τ) (mo t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (mx t) fullShare ((dats m 0 c).after 0 t)
    ∗ owns (c : Thread nD τ) (mw t) fullShare ((dats m 0 c).after 1 t)
    ∗ owns (c : Thread nD τ) (ma t) fullShare ((dats m 0 c).after 2 t)
    ∗ owns (c : Thread nD τ) (mb t) fullShare ((dats m 0 c).after 3 t)
    ∗ owns (c : Thread nD τ) (mo t) fullShare ((dats m 0 c).after 4 t))

set_option maxHeartbeats 800000 in
/-- The body at any point: the inputs' memrefs hold their blocks; the closed forms say which run the point is; at a
    later point the output's memref holds what the point before left; so the run applies, and its stores read back are
    `accAt` there. The invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_a, before_b]
  rw [show (dats m 0 c).Φ t.succ = (dats m 0 c).Φ t.castSucc from rfl,
    show (dats m 0 c).owesAt () t.succ = (dats m 0 c).owesAt () t.castSucc from rfl,
    after_x, after_w, after_a, after_b, after_o]
  by_cases h0 : t.val % 4 = 0
  · rw [accAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => (later_iff t).mp h h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first c _ _ _ _ _ _ _ _ _ _ _ _ _ _ _ _ _)
  · rw [accAt_later m c t h0]
    simp only [before_o_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) ((later_iff t).mpr h0)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_later c _ _ _ _ _ _ _ _ _ _ _ _ _ _ _ _ _ _)

end Cert.KernelIdeal.Body

end
-- ==== Proof.IdealLaunch.lean ====
/-
  The body obligation of the graph-convolution kernel's pipeline at every point, the frame run and the frame: the
  windows of the obligation are opened one by one, the output window is live at the point (one of the two
  complementary conditionals is taken), and the body's triple at a generic point closes it.
-/
import proofs.«146435_g62397284876833_cont_9to1c4b_236_5_alg».proof.Proof.IdealFrame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: the windows opened one by one, the output window live there. -/
theorem body_obligation (c : Dev nD) : BodyObligation (dats (F := F) m 0 c) (defs₀ (F := F)) Variants.none () Set.univ := fun t => by
  rw [bigSep_W0, bigSep_W0]
  have hl : idle0 4 (grid0.coords t) = false := out_live _
  simp only [hl]
  exact sound_body m c t

/-! ## The run and the frame -/

set_option backward.isDefEq.respectTransparency.types false in
/-- From any memory with zero counters every weakly fair execution of the program terminates, and every final state has
    every array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any float instance: the program runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.IdealPieces.lean ====
/-
  What the two runs of the graph-convolution kernel's body leave in the output block, as plain values. The first-block
  run makes one store of the whole block, of
      (adjacency block)ᵀ · (feature block · weights) + bias         (the payload `k0_pay2`),
  and the later-block run one store of
      (what the block held) + (adjacency block)ᵀ · (feature block · weights)     (the payload `k0_pay3`);
  each load is through the whole staging buffer and reads its contents. So the stores read back are those payloads of
  the buffers' contents, whatever the memrefs and the grid coordinate.
-/
import proofs.«146435_g62397284876833_cont_9to1c4b_236_5_alg».proof.Proof.IdealFrame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros3 : (![0, 0, 0] : Fin 3 → Nat) = fun _ => 0 := by
  funext a; match a with | ⟨0, _⟩ => rfl | ⟨1, _⟩ => rfl | ⟨2, _⟩ => rfl

theorem zeros2 : (![0, 0] : Fin 2 → Nat) = fun _ => 0 := by
  funext a; match a with | ⟨0, _⟩ => rfl | ⟨1, _⟩ => rfl

set_option pp.deepTerms false in
set_option pp.maxSteps 20000 in
/-- The first-block run leaves the bias-seeded partial product of its four input blocks. -/
theorem outFirst_eq (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : k0_cond1 i = 1#1) (hc2 : ¬ k0_cond2 i = 1#1)
    (x : Vec F S1x512x128 .f32) (w : Vec F S128x128 .f32) (a : Vec F S1x512x2048 .f32) (b : Vec F S1x128 .f32) :
    outFirst c i arg2 harg2 arg3 harg3 arg4 harg4 arg5 harg5 arg6 harg6 hc1 hc2 x w a b = k0_pay2 x w a b := by
  unfold outFirst
  rw [View.read_writes_eq_canon _ _ _ (cover_first c i arg2 harg2 arg3 harg3 arg4 harg4 arg5 harg5 arg6 harg6 hc1 hc2 x w a b)]
  unfold runFirst; dsimp only; sl_unfold_words
  rw [View.canon_unit_zero zeros3]
  simp only [View.readAt_eq_ld, harg2.read_unread, harg3.read_unread, harg4.read_unread, harg5.read_unread,
    View.ld_unit_zero (S := S1x512x128) zeros3, View.ld_unit_zero (S := S128x128) zeros2,
    View.ld_unit_zero (S := S1x512x2048) zeros3, View.ld_unit_zero (S := S1x128) zeros2]

set_option pp.deepTerms false in
set_option pp.maxSteps 20000 in
/-- The later-block run leaves what the block held plus the partial product of its input blocks. -/
theorem outLater_eq (c : Dev nD) (i : grid0.Coords)
    (arg2 : Memref sig .tc .vmem S1x512x128 .f32) (harg2 : arg2.IsWhole)
    (arg3 : Memref sig .tc .vmem S128x128 .f32) (harg3 : arg3.IsWhole)
    (arg4 : Memref sig .tc .vmem S1x512x2048 .f32) (harg4 : arg4.IsWhole)
    (arg5 : Memref sig .tc .vmem S1x128 .f32) (harg5 : arg5.IsWhole)
    (arg6 : Memref sig .tc .vmem S1x2048x128 .f32) (harg6 : arg6.IsWhole)
    (hc1 : ¬ k0_cond1 i = 1#1) (hc2 : k0_cond2 i = 1#1)
    (x : Vec F S1x512x128 .f32) (w : Vec F S128x128 .f32) (a : Vec F S1x512x2048 .f32) (b : Vec F S1x128 .f32)
    (prev : Vec F S1x2048x128 .f32) :
    outLater c i arg2 harg2 arg3 harg3 arg4 harg4 arg5 harg5 arg6 harg6 hc1 hc2 x w a b prev = k0_pay3 x w a prev := by
  unfold outLater
  rw [View.read_writes_eq_canon _ _ _ (cover_later c i arg2 harg2 arg3 harg3 arg4 harg4 arg5 harg5 arg6 harg6 hc1 hc2 x w a b prev)]
  unfold runLater; dsimp only; sl_unfold_words
  rw [View.canon_unit_zero zeros3]
  simp only [View.readAt_eq_ld, harg2.read_unread, harg3.read_unread, harg4.read_unread, harg6.read_unread,
    View.ld_unit_zero (S := S1x512x128) zeros3, View.ld_unit_zero (S := S128x128) zeros2,
    View.ld_unit_zero (S := S1x512x2048) zeros3, View.ld_unit_zero (S := S1x2048x128) zeros3]

end Cert.KernelIdeal.Body

end
-- ==== Proof.IdealPayload.lean ====
/-
  The arithmetic of the graph-convolution kernel's body, read at an index, at the ideal values (floats are extended
  reals, every operation exact, a change of float format the identity).

  With x the 512 x 128 block of feature rows, w the 128 x 128 weights and a the 512 x 2048 block of adjacency rows that a
  grid point loads (each with a leading unit axis), the body's partial product is
      partial(n, f) = Σ_k a[k, n] · ( Σ_d x[k, d] · w[d, f] ) ,
  a matrix product contracting the ROW index k of both operands (the adjacency block enters transposed) of the block's
  projected features; both products accumulate into zero, so each is just its sum. The first-block store is
  partial + bias (the bias row broadcast down the 2048 rows), the later-block store is (what was there) + partial.
-/
import proofs.«146435_g62397284876833_cont_9to1c4b_236_5_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Payload

open Cert.KernelIdeal Cert.KernelIdeal.Gen Idealize.ShloMosaic Idealize.ShloMosaic.ValueIdx

/-! ## The two contractions' operand indices, axis by axis -/

-- features x weights: output (k, f), contraction index d: the left operand is read at (k, d), the right at (d, f)
theorem proj_lhs_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem proj_lhs_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem proj_rhs_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem proj_rhs_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

-- transposed adjacency x projected features: output (n, f), contraction index k: the left operand is read at (k, n),
-- the right at (k, f)
theorem agg_lhs_0 (i : S2048x128.Idx) (q : dot_S512x2048_S512x128_S2048x128_0_0_1_1_n_n.contr.Idx) :
    (dot_S512x2048_S512x128_S2048x128_0_0_1_1_n_n.lhsIdx i q 0).val = (q ⟨0, by decide⟩).val :=
  dot_S512x2048_S512x128_S2048x128_0_0_1_1_n_n.lhsIdx_val_of_single rfl i q
theorem agg_lhs_1 (i : S2048x128.Idx) (q : dot_S512x2048_S512x128_S2048x128_0_0_1_1_n_n.contr.Idx) :
    (dot_S512x2048_S512x128_S2048x128_0_0_1_1_n_n.lhsIdx i q 1).val = (i 0).val := by
  unfold DotDims.lhsIdx
  rw [dif_neg (show ¬(1 : Fin S512x2048.rank) ∈ dot_S512x2048_S512x128_S2048x128_0_0_1_1_n_n.lhsBatch by decide), dif_pos (show (1 : Fin S512x2048.rank) ∈ dot_S512x2048_S512x128_S2048x128_0_0_1_1_n_n.lhsNonContracting by decide)]
  rfl
theorem agg_rhs_0 (i : S2048x128.Idx) (q : dot_S512x2048_S512x128_S2048x128_0_0_1_1_n_n.contr.Idx) :
    (dot_S512x2048_S512x128_S2048x128_0_0_1_1_n_n.rhsIdx i q 0).val = (q ⟨0, by decide⟩).val :=
  dot_S512x2048_S512x128_S2048x128_0_0_1_1_n_n.rhsIdx_val_of_single rfl i q
theorem agg_rhs_1 (i : S2048x128.Idx) (q : dot_S512x2048_S512x128_S2048x128_0_0_1_1_n_n.contr.Idx) :
    (dot_S512x2048_S512x128_S2048x128_0_0_1_1_n_n.rhsIdx i q 1).val = (i 1).val := by
  unfold DotDims.rhsIdx
  rw [dif_neg (show ¬(1 : Fin S512x128.rank) ∈ dot_S512x2048_S512x128_S2048x128_0_0_1_1_n_n.rhsBatch by decide), dif_pos (show (1 : Fin S512x128.rank) ∈ dot_S512x2048_S512x128_S2048x128_0_0_1_1_n_n.rhsNonContracting by decide)]
  rfl

/-! ## The products as sums -/

/-- The block's projected features at (k, f): Σ_d x[k, d] · w[d, f]. -/
theorem projected_apply (xs : FVec Ideal S512x128 .f32) (w : FVec Ideal S128x128 .f32) (k : Fin 512) (f : Fin 128) :
    matmul dot_S512x128_S128x128_S512x128_1_0_0_1_n_n none xs w (constant S512x128 .f32 0x00000000#32) (ix2 k f)
      = ∑ d : Fin 128, xs (ix2 k d) * w (ix2 d f) := by
  refine (Ideal.matmul_constant_zero_apply dot_S512x128_S128x128_S512x128_1_0_0_1_n_n none xs w (ix2 k f)).trans ?_
  rw [← Equiv.sum_comp (contrEquiv1 dot_S512x128_S128x128_S512x128_1_0_0_1_n_n 128 rfl rfl).symm]
  refine Finset.sum_congr rfl fun d _ => ?_
  have hd := contrEquiv1_symm_val dot_S512x128_S128x128_S512x128_1_0_0_1_n_n 128 rfl rfl d
  have el : dot_S512x128_S128x128_S512x128_1_0_0_1_n_n.lhsIdx (ix2 k f) ((contrEquiv1 dot_S512x128_S128x128_S512x128_1_0_0_1_n_n 128 rfl rfl).symm d) = ix2 k d := funext fun a => Fin.ext (by
    match a with
    | ⟨0, _⟩ => exact proj_lhs_0 _ _
    | ⟨1, _⟩ => exact (proj_lhs_1 _ _).trans hd)
  have er : dot_S512x128_S128x128_S512x128_1_0_0_1_n_n.rhsIdx (ix2 k f) ((contrEquiv1 dot_S512x128_S128x128_S512x128_1_0_0_1_n_n 128 rfl rfl).symm d) = ix2 d f := funext fun a => Fin.ext (by
    match a with
    | ⟨0, _⟩ => exact (proj_rhs_0 _ _).trans hd
    | ⟨1, _⟩ => exact proj_rhs_1 _ _)
  rw [el, er]

/-- The transposed adjacency block against any 512 x 128 matrix s, at (n, f): Σ_k a[k, n] · s[k, f]. -/
theorem aggregated_apply (adj : FVec Ideal S512x2048 .bf16) (s : FVec Ideal S512x128 .bf16) (n : Fin 2048) (f : Fin 128) :
    matmul dot_S512x2048_S512x128_S2048x128_0_0_1_1_n_n none adj s (constant S2048x128 .f32 0x00000000#32) (ix2 n f)
      = ∑ k : Fin 512, adj (ix2 k n) * s (ix2 k f) := by
  refine (Ideal.matmul_constant_zero_apply dot_S512x2048_S512x128_S2048x128_0_0_1_1_n_n none adj s (ix2 n f)).trans ?_
  rw [← Equiv.sum_comp (contrEquiv1 dot_S512x2048_S512x128_S2048x128_0_0_1_1_n_n 512 rfl rfl).symm]
  refine Finset.sum_congr rfl fun k _ => ?_
  have hk := contrEquiv1_symm_val dot_S512x2048_S512x128_S2048x128_0_0_1_1_n_n 512 rfl rfl k
  have el : dot_S512x2048_S512x128_S2048x128_0_0_1_1_n_n.lhsIdx (ix2 n f) ((contrEquiv1 dot_S512x2048_S512x128_S2048x128_0_0_1_1_n_n 512 rfl rfl).symm k) = ix2 k n := funext fun a => Fin.ext (by
    match a with
    | ⟨0, _⟩ => exact (agg_lhs_0 _ _).trans hk
    | ⟨1, _⟩ => exact agg_lhs_1 _ _)
  have er : dot_S512x2048_S512x128_S2048x128_0_0_1_1_n_n.rhsIdx (ix2 n f) ((contrEquiv1 dot_S512x2048_S512x128_S2048x128_0_0_1_1_n_n 512 rfl rfl).symm k) = ix2 k f := funext fun a => Fin.ext (by
    match a with
    | ⟨0, _⟩ => exact (agg_rhs_0 _ _).trans hk
    | ⟨1, _⟩ => exact agg_rhs_1 _ _)
  rw [el, er]

/-! ## The payloads at an index -/

/-- The partial product of one row block at (n, f). -/
theorem partial_apply (x : FVec Ideal S1x512x128 .f32) (w : FVec Ideal S128x128 .f32) (a : FVec Ideal S1x512x2048 .f32)
    (n : Fin 2048) (f : Fin 128) :
    k0_pay1 (F := Ideal) x w a (ix2 n f)
      = ∑ k : Fin 512, a (ix3 (0 : Fin 1) k n) * ∑ d : Fin 128, x (ix3 (0 : Fin 1) k d) * w (ix2 d f) := by
  unfold k0_pay1
  refine (aggregated_apply _ _ n f).trans ?_
  refine Finset.sum_congr rfl fun k _ => ?_
  -- a change of float format is the identity at the ideal values
  show shapeCast S512x2048 a shapeCasts_S1x512x2048_S512x2048 (ix2 k n)
      * matmul dot_S512x128_S128x128_S512x128_1_0_0_1_n_n none (shapeCast S512x128 x shapeCasts_S1x512x128_S512x128) w (constant S512x128 .f32 0x00000000#32) (ix2 k f) = _
  refine congrArg₂ (· * ·) (shapeCast_1ab_ab_apply a shapeCasts_S1x512x2048_S512x2048 k n) ?_
  refine (projected_apply _ w k f).trans ?_
  refine Finset.sum_congr rfl fun d _ => ?_
  exact congrArg (· * w (ix2 d f)) (shapeCast_1ab_ab_apply x shapeCasts_S1x512x128_S512x128 k d)

/-- The first-block store at (0, n, f): the partial product plus the bias entry f. -/
theorem first_apply (x : FVec Ideal S1x512x128 .f32) (w : FVec Ideal S128x128 .f32) (a : FVec Ideal S1x512x2048 .f32)
    (b : FVec Ideal S1x128 .f32) (n : Fin 2048) (f : Fin 128) :
    k0_pay2 (F := Ideal) x w a b (ix3 (0 : Fin 1) n f)
      = (∑ k : Fin 512, a (ix3 (0 : Fin 1) k n) * ∑ d : Fin 128, x (ix3 (0 : Fin 1) k d) * w (ix2 d f)) + b (ix2 (0 : Fin 1) f) := by
  unfold k0_pay2
  refine (shapeCast_ab_1ab_apply _ shapeCasts_S2048x128_S1x2048x128 (0 : Fin 1) n f).trans ?_
  show k0_pay1 (F := Ideal) x w a (ix2 n f)
      + broadcastTo S2048x128 (shapeCast S1x128 b shapeCasts_S1x128_S1x128) broadcasts_S1x128_S2048x128 (ix2 n f) = _
  refine congrArg₂ (· + ·) (partial_apply x w a n f) ?_
  refine (broadcastTo_apply _ broadcasts_S1x128_S2048x128 (ix2 n f) (ix2 (0 : Fin 1) f) (fun a => ?_)).trans ?_
  · match a with
    | ⟨0, _⟩ => exact (if_pos (show (1 : Nat) = 1 from rfl)).symm
    | ⟨1, _⟩ => exact (if_neg (show ¬ (128 : Nat) = 1 by decide)).symm
  · rw [shapeCast_self]

/-- The later-block store at (0, n, f): what the block held there plus the partial product. -/
theorem later_apply (x : FVec Ideal S1x512x128 .f32) (w : FVec Ideal S128x128 .f32) (a : FVec Ideal S1x512x2048 .f32)
    (prev : FVec Ideal S1x2048x128 .f32) (n : Fin 2048) (f : Fin 128) :
    k0_pay3 (F := Ideal) x w a prev (ix3 (0 : Fin 1) n f)
      = prev (ix3 (0 : Fin 1) n f) + ∑ k : Fin 512, a (ix3 (0 : Fin 1) k n) * ∑ d : Fin 128, x (ix3 (0 : Fin 1) k d) * w (ix2 d f) := by
  unfold k0_pay3
  refine (shapeCast_ab_1ab_apply _ shapeCasts_S2048x128_S1x2048x128 (0 : Fin 1) n f).trans ?_
  show shapeCast S2048x128 prev shapeCasts_S1x2048x128_S2048x128 (ix2 n f) + k0_pay1 (F := Ideal) x w a (ix2 n f) = _
  exact congrArg₂ (· + ·) (shapeCast_1ab_ab_apply prev shapeCasts_S1x2048x128_S2048x128 n f) (partial_apply x w a n f)

end Cert.KernelIdeal.Payload

end
-- ==== Proof.GcnSpec.lean ====
/-
  The graph-convolution layer as ONE function of its argument arrays, and the law that joins the kernel's way of
  computing it to the reference's.

  For features X : [4, 2048, 128], adjacency A : [4, 2048, 2048], weights W : [128, 128] and a bias β : [128], over
  the extended reals,
      layer(b, n, f) = ( Σ_m A[b, m, n] · ( Σ_d X[b, m, d] · W[d, f] ) ) + β[f] ,
  the row index m running over all 2048 rows: the transposed adjacency times the projected features, plus the bias.

  The kernel never forms the sum over m at once. It walks the rows in four blocks of 512, starts from the first
  block's sum PLUS THE BIAS, and adds the later blocks' sums one after the other. That this is the same number needs
  only that addition of extended reals is commutative and associative, so it holds at the infinities too and no
  finiteness of the inputs is used.
-/
import Idealize.ShloMosaic.Lib.ValueIdx
import Mathlib.Algebra.BigOperators.Fin
import Mathlib.Logic.Equiv.Fin.Basic
import Mathlib.Tactic.Abel

noncomputable section

namespace Cert.GcnSpec

open Idealize.ShloMosaic Idealize.ShloMosaic.ValueIdx

/-- The feature row m of batch b projected by the weights, at output feature f: Σ_d X[b, m, d] · W[d, f]. -/
def support (X : (⟨3, ![4, 2048, 128]⟩ : Shape).Idx → EReal) (W : (⟨2, ![128, 128]⟩ : Shape).Idx → EReal)
    (b : Fin 4) (m : Fin 2048) (f : Fin 128) : EReal :=
  ∑ d : Fin 128, X (ix3 b m d) * W (ix2 d f)

/-- What row m contributes to output node n, feature f of batch b: A[b, m, n] times the projected row. -/
def contrib (X : (⟨3, ![4, 2048, 128]⟩ : Shape).Idx → EReal) (A : (⟨3, ![4, 2048, 2048]⟩ : Shape).Idx → EReal)
    (W : (⟨2, ![128, 128]⟩ : Shape).Idx → EReal) (b : Fin 4) (n : Fin 2048) (f : Fin 128) (m : Fin 2048) : EReal :=
  A (ix3 b m n) * support X W b m f

/-- The layer at coordinates (b, n, f). -/
def layerAt (X : (⟨3, ![4, 2048, 128]⟩ : Shape).Idx → EReal) (A : (⟨3, ![4, 2048, 2048]⟩ : Shape).Idx → EReal)
    (W : (⟨2, ![128, 128]⟩ : Shape).Idx → EReal) (β : (⟨1, ![128]⟩ : Shape).Idx → EReal)
    (b : Fin 4) (n : Fin 2048) (f : Fin 128) : EReal :=
  (∑ m : Fin 2048, contrib X A W b n f m) + β (ix1 f)

/-- The layer as an array. -/
def layer (X : (⟨3, ![4, 2048, 128]⟩ : Shape).Idx → EReal) (A : (⟨3, ![4, 2048, 2048]⟩ : Shape).Idx → EReal)
    (W : (⟨2, ![128, 128]⟩ : Shape).Idx → EReal) (β : (⟨1, ![128]⟩ : Shape).Idx → EReal) :
    (⟨3, ![4, 2048, 128]⟩ : Shape).Idx → EReal :=
  fun i => layerAt X A W β ⟨(i 0).val, (i 0).isLt⟩ ⟨(i 1).val, (i 1).isLt⟩ ⟨(i 2).val, (i 2).isLt⟩

theorem layer_ix3 (X : (⟨3, ![4, 2048, 128]⟩ : Shape).Idx → EReal) (A : (⟨3, ![4, 2048, 2048]⟩ : Shape).Idx → EReal)
    (W : (⟨2, ![128, 128]⟩ : Shape).Idx → EReal) (β : (⟨1, ![128]⟩ : Shape).Idx → EReal)
    (b : Fin 4) (n : Fin 2048) (f : Fin 128) : layer X A W β (ix3 b n f) = layerAt X A W β b n f := rfl

/-- A sum over 2048 rows is the sum, over the four blocks of 512 rows, of each block's sum. -/
theorem sum_rows_by_blocks {M : Type*} [AddCommMonoid M] (T : Fin 2048 → M) :
    ∑ m : Fin 2048, T m
      = ∑ j : Fin 4, ∑ k : Fin 512, T ⟨k.val + 512 * j.val, by have := j.isLt; have := k.isLt; omega⟩ := by
  rw [← Equiv.sum_comp (finProdFinEquiv : Fin 4 × Fin 512 ≃ Fin 2048) T, Fintype.sum_prod_type]
  rfl

/-- THE LAW. Start from the first block's sum plus β and add the other three blocks' sums in turn: the result is
    the whole sum plus β. The blocks' rows are given by any four maps whose values are k, 512 + k, 1024 + k and
    1536 + k. -/
theorem accumulate_blocks {M : Type*} [AddCommMonoid M] (T : Fin 2048 → M) (β : M) (r0 r1 r2 r3 : Fin 512 → Fin 2048)
    (h0 : ∀ k, (r0 k).val = k.val) (h1 : ∀ k, (r1 k).val = 512 + k.val)
    (h2 : ∀ k, (r2 k).val = 1024 + k.val) (h3 : ∀ k, (r3 k).val = 1536 + k.val) :
    ((((∑ k, T (r0 k)) + β) + ∑ k, T (r1 k)) + ∑ k, T (r2 k)) + ∑ k, T (r3 k) = (∑ m, T m) + β := by
  have e0 : ∀ k : Fin 512, r0 k = ⟨k.val + 512 * (0 : Fin 4).val, by have := k.isLt; simp; omega⟩ :=
    fun k => Fin.ext (by rw [h0]; simp)
  have e1 : ∀ k : Fin 512, r1 k = ⟨k.val + 512 * (1 : Fin 4).val, by have := k.isLt; simp; omega⟩ :=
    fun k => Fin.ext (by rw [h1]; simp; omega)
  have e2 : ∀ k : Fin 512, r2 k = ⟨k.val + 512 * (2 : Fin 4).val, by have := k.isLt; simp; omega⟩ :=
    fun k => Fin.ext (by rw [h2]; simp; omega)
  have e3 : ∀ k : Fin 512, r3 k = ⟨k.val + 512 * (3 : Fin 4).val, by have := k.isLt; simp; omega⟩ :=
    fun k => Fin.ext (by rw [h3]; simp; omega)
  rw [sum_rows_by_blocks T, Fin.sum_univ_four]
  simp only [e0, e1, e2, e3]
  abel

end Cert.GcnSpec

end
-- ==== Proof.IdealArray.lean ====
/-
  The idealized kernel's result array is the graph-convolution layer of its argument arrays.

  Grid point t = 4·b + j holds rows 512·j … 512·j + 511 of batch b's features and adjacency in its input blocks, the whole
  weight matrix, and the bias as a one-row array (a reshape made before the region). So the partial product the body
  forms at t is the sum, over that block of rows m, of A[b, m, n] · Σ_d X[b, m, d] · W[d, f]. The output block of
  batch b is stored whole at j = 0 (first block's sum plus the bias) and added to at j = 1, 2, 3; it is written back after
  j = 3, when it holds
      (((first block + bias) + second block) + third block) + fourth block ,
  which is the sum over all 2048 rows plus the bias: the layer at (b, n, f) (the specification's law; associativity
  and commutativity of the extended reals' addition only). The four write-backs' blocks tile the result array.
  The steps from the blocks to the array (the index maps decided over the grid, a block element's place in its array, what
  a point writes back, the cover, the final array, the run re-posted) are the usual ones for a pipelined output.
-/
import proofs.«146435_g62397284876833_cont_9to1c4b_236_5_alg».proof.Proof.IdealLaunch
import proofs.«146435_g62397284876833_cont_9to1c4b_236_5_alg».proof.Proof.IdealPieces
import proofs.«146435_g62397284876833_cont_9to1c4b_236_5_alg».proof.Proof.IdealPayload
import proofs.«146435_g62397284876833_cont_9to1c4b_236_5_alg».proof.Proof.GcnSpec
import Idealize.ShloMosaic.Lib.Pipeline.Value
import Idealize.ShloMosaic.Lib.ValueLayout
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.StableHlo Cert.GcnSpec

variable (m : (ℓ : Loc nD τ sig) → Buf (Elt Ideal) ℓ) (ρ : Dev nD → PrngReg)

/-! ## The arrays as the region finds them -/

abbrev Xarr (c : Dev nD) : FVec Ideal S4x2048x128 .f32 := V m c main_arg0
abbrev Aarr (c : Dev nD) : FVec Ideal S4x2048x2048 .f32 := V m c main_arg1
abbrev Warr (c : Dev nD) : FVec Ideal S128x128 .f32 := V m c main_arg2
abbrev βarr (c : Dev nD) : FVec Ideal S128 .f32 := V m c main_arg3
abbrev Brow (c : Dev nD) : FVec Ideal S1x128 .f32 := V m c main_call0_v0

/-- The one-row bias array the region stages is the bias reshaped. -/
theorem Brow_eq (c : Dev nD) : Brow m c = shapeCast S1x128 (βarr m c) shapeCasts_S128_S1x128 := by
  dsimp only [Brow, βarr, V, hostOps0]
  after_results
  rfl

/-! ## The grid: batch and row block of a point -/

theorem N16 (t : Fin cfg0.N) : t.val < 16 := lt_of_lt_of_eq t.isLt (show cfg0.N = 16 from N_0)

/-- The batch of point t. -/
abbrev batchOf (t : Fin cfg0.N) : Fin 4 := ⟨t.val / 4, by have := N16 t; omega⟩
/-- Row k of point t's row block, as a row of the arrays. -/
abbrev rowOf (t : Fin cfg0.N) (k : Fin 512) : Fin 2048 := ⟨512 * (t.val % 4) + k.val, by have := k.isLt; omega⟩

/-- The printed index maps, decided over the grid. -/
theorem index_facts : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ (win0_2.index t (0 : Fin 3) = t.val / 4 ∧ win0_2.index t (1 : Fin 3) = t.val % 4 ∧ win0_2.index t (2 : Fin 3) = 0)
    ∧ (win0_3.index t (0 : Fin 2) = 0 ∧ win0_3.index t (1 : Fin 2) = 0)
    ∧ (win0_4.index t (0 : Fin 3) = t.val / 4 ∧ win0_4.index t (1 : Fin 3) = 0 ∧ win0_4.index t (2 : Fin 3) = 0) :=
  (by decide +kernel : ∀ t : Fin grid0.N, _)

/-! ## The input blocks are the arrays' entries -/

/-- The four input blocks of a point, each at its literal type. -/
abbrev xblk (c : Dev nD) (t : Fin cfg0.N) : FVec Ideal S1x512x128 .f32 := iblk m c 0 t
abbrev wblk (c : Dev nD) (t : Fin cfg0.N) : FVec Ideal S128x128 .f32 := iblk m c 1 t
abbrev ablk (c : Dev nD) (t : Fin cfg0.N) : FVec Ideal S1x512x2048 .f32 := iblk m c 2 t
abbrev bblk (c : Dev nD) (t : Fin cfg0.N) : FVec Ideal S1x128 .f32 := iblk m c 3 t

theorem xblk_apply (c : Dev nD) (t : Fin cfg0.N) (k : Fin 512) (d : Fin 128) :
    xblk m c t (ix3 (0 : Fin 1) k d) = Xarr m c (ix3 (batchOf t) (rowOf t k) d) := by
  obtain ⟨⟨e0, e1, e2⟩, -⟩ := index_facts t
  unfold xblk iblk
  show V m c main_arg0 (((cfg0.win 0).blk t).view.emb (ix3 (0 : Fin 1) k d)) = V m c main_arg0 _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 512 + 1 * k.val = 512 * (t.val % 4) + k.val; omega
  | ⟨2, _⟩ => show win0_0.index t (2 : Fin 3) * 128 + 1 * d.val = d.val; omega

theorem ablk_apply (c : Dev nD) (t : Fin cfg0.N) (k : Fin 512) (n : Fin 2048) :
    ablk m c t (ix3 (0 : Fin 1) k n) = Aarr m c (ix3 (batchOf t) (rowOf t k) n) := by
  obtain ⟨-, -, ⟨e0, e1, e2⟩, -⟩ := index_facts t
  unfold ablk iblk
  show V m c main_arg1 (((cfg0.win 2).blk t).view.emb (ix3 (0 : Fin 1) k n)) = V m c main_arg1 _
  refine congrArg (V m c main_arg1) (funext fun a => Fin.ext ?_)
  match a with
  | ⟨0, _⟩ => show win0_2.index t (0 : Fin 3) * 1 + 1 * 0 = t.val / 4; omega
  | ⟨1, _⟩ => show win0_2.index t (1 : Fin 3) * 512 + 1 * k.val = 512 * (t.val % 4) + k.val; omega
  | ⟨2, _⟩ => show win0_2.index t (2 : Fin 3) * 2048 + 1 * n.val = n.val; omega

theorem wblk_apply (c : Dev nD) (t : Fin cfg0.N) (d : Fin 128) (f : Fin 128) :
    wblk m c t (ix2 d f) = Warr m c (ix2 d f) := by
  obtain ⟨-, ⟨e0, e1⟩, -⟩ := index_facts t
  unfold wblk iblk
  show V m c main_arg2 (((cfg0.win 1).blk t).view.emb (ix2 d f)) = V m c main_arg2 _
  refine congrArg (V m c main_arg2) (funext fun a => Fin.ext ?_)
  match a with
  | ⟨0, _⟩ => show win0_1.index t (0 : Fin 2) * 128 + 1 * d.val = d.val; omega
  | ⟨1, _⟩ => show win0_1.index t (1 : Fin 2) * 128 + 1 * f.val = f.val; omega

theorem bblk_apply (c : Dev nD) (t : Fin cfg0.N) (f : Fin 128) :
    bblk m c t (ix2 (0 : Fin 1) f) = βarr m c (ix1 f) := by
  obtain ⟨-, -, -, ⟨e0, e1⟩, -⟩ := index_facts t
  have h : bblk m c t (ix2 (0 : Fin 1) f) = Brow m c (ix2 (0 : Fin 1) f) := by
    unfold bblk iblk
    show V m c main_call0_v0 (((cfg0.win 3).blk t).view.emb (ix2 (0 : Fin 1) f)) = V m c main_call0_v0 _
    refine congrArg (V m c main_call0_v0) (funext fun a => Fin.ext ?_)
    match a with
    | ⟨0, _⟩ => show win0_3.index t (0 : Fin 2) * 1 + 1 * 0 = 0; omega
    | ⟨1, _⟩ => show win0_3.index t (1 : Fin 2) * 128 + 1 * f.val = f.val; omega
  rw [h, Brow_eq]
  exact shapeCast_a_1a_apply _ shapeCasts_S128_S1x128 (0 : Fin 1) f

/-! ## The output block after each point of a batch -/

/-- The partial product a point forms is its row block's share of the layer's sum. -/
theorem partial_is_block (c : Dev nD) (t : Fin cfg0.N) (n : Fin 2048) (f : Fin 128) :
    (∑ k : Fin 512, ablk m c t (ix3 (0 : Fin 1) k n) * ∑ d : Fin 128, xblk m c t (ix3 (0 : Fin 1) k d) * wblk m c t (ix2 d f))
      = ∑ k : Fin 512, contrib (Xarr m c) (Aarr m c) (Warr m c) (batchOf t) n f (rowOf t k) := by
  refine Finset.sum_congr rfl fun k _ => ?_
  unfold contrib support
  exact congrArg₂ (· * ·) (ablk_apply m c t k n)
    (Finset.sum_congr rfl fun d _ => congrArg₂ (· * ·) (xblk_apply m c t k d) (wblk_apply m c t d f))

/-- After the first point of a batch: the first row block's sum plus the bias. -/
theorem acc_first_apply (c : Dev nD) (t : Fin cfg0.N) (h0 : t.val % 4 = 0) (n : Fin 2048) (f : Fin 128) :
    accAt m c t.val t.isLt (ix3 (0 : Fin 1) n f)
      = (∑ k : Fin 512, contrib (Xarr m c) (Aarr m c) (Warr m c) (batchOf t) n f (rowOf t k)) + βarr m c (ix1 f) := by
  rw [accAt_first m c t h0, outFirst_eq]
  refine (Payload.first_apply (xblk m c t) (wblk m c t) (ablk m c t) (bblk m c t) n f).trans ?_
  exact congrArg₂ (· + ·) (partial_is_block m c t n f) (bblk_apply m c t f)

/-- After a later point of a batch: what the point before left plus this row block's sum. -/
theorem acc_later_apply (c : Dev nD) (t : Fin cfg0.N) (h0 : ¬ t.val % 4 = 0) (n : Fin 2048) (f : Fin 128) :
    accAt m c t.val t.isLt (ix3 (0 : Fin 1) n f)
      = accAt m c (t.val - 1) (Nat.lt_of_le_of_lt (Nat.sub_le _ _) t.isLt) (ix3 (0 : Fin 1) n f)
        + ∑ k : Fin 512, contrib (Xarr m c) (Aarr m c) (Warr m c) (batchOf t) n f (rowOf t k) := by
  rw [accAt_later m c t h0, outLater_eq]
  refine (Payload.later_apply (xblk m c t) (wblk m c t) (ablk m c t)
    (accAt m c (t.val - 1) (Nat.lt_of_le_of_lt (Nat.sub_le _ _) t.isLt)) n f).trans ?_
  exact congrArg (_ + ·) (partial_is_block m c t n f)

/-- After the LAST point of a batch the output block holds the layer's rows of that batch. -/
theorem acc_last_apply (c : Dev nD) (t : Fin cfg0.N) (h3 : t.val % 4 = 3) (n : Fin 2048) (f : Fin 128) :
    accAt m c t.val t.isLt (ix3 (0 : Fin 1) n f)
      = layerAt (Xarr m c) (Aarr m c) (Warr m c) (βarr m c) (batchOf t) n f := by
  have hN := N16 t
  have l1 : t.val - 1 < cfg0.N := by have := t.isLt; omega
  have l2 : t.val - 2 < cfg0.N := by have := t.isLt; omega
  have l3 : t.val - 3 < cfg0.N := by have := t.isLt; omega
  have e3 := acc_later_apply m c t (by omega) n f
  have e2 := acc_later_apply m c ⟨t.val - 1, l1⟩ (by show ¬ (t.val - 1) % 4 = 0; omega) n f
  have e1 := acc_later_apply m c ⟨t.val - 2, l2⟩ (by show ¬ (t.val - 2) % 4 = 0; omega) n f
  have e0 := acc_first_apply m c ⟨t.val - 3, l3⟩ (by show (t.val - 3) % 4 = 0; omega) n f
  have b2 : batchOf ⟨t.val - 1, l1⟩ = batchOf t := Fin.ext (by show (t.val - 1) / 4 = t.val / 4; omega)
  have b1 : batchOf ⟨t.val - 2, l2⟩ = batchOf t := Fin.ext (by show (t.val - 2) / 4 = t.val / 4; omega)
  have b0 : batchOf ⟨t.val - 3, l3⟩ = batchOf t := Fin.ext (by show (t.val - 3) / 4 = t.val / 4; omega)
  rw [b2] at e2; rw [b1] at e1; rw [b0] at e0
  have s2 : accAt m c (t.val - 1 - 1) (Nat.lt_of_le_of_lt (Nat.sub_le _ _) l1) = accAt m c (t.val - 2) l2 := by
    congr 1
  have s1 : accAt m c (t.val - 2 - 1) (Nat.lt_of_le_of_lt (Nat.sub_le _ _) l2) = accAt m c (t.val - 3) l3 := by
    congr 1
  refine e3.trans ?_
  refine (congrArg (· + _) (e2.trans (congrArg (· + _) ((congrFun s2 _).trans (e1.trans (congrArg (· + _) ((congrFun s1 _).trans e0))))))).trans ?_
  unfold layerAt
  exact accumulate_blocks (contrib (Xarr m c) (Aarr m c) (Warr m c) (batchOf t) n f) (βarr m c (ix1 f))
    (rowOf ⟨t.val - 3, l3⟩) (rowOf ⟨t.val - 2, l2⟩) (rowOf ⟨t.val - 1, l1⟩) (rowOf t)
    (fun k => by show 512 * ((t.val - 3) % 4) + k.val = k.val; omega)
    (fun k => by show 512 * ((t.val - 2) % 4) + k.val = 512 + k.val; omega)
    (fun k => by show 512 * ((t.val - 1) % 4) + k.val = 1024 + k.val; omega)
    (fun k => by show 512 * (t.val % 4) + k.val = 1536 + k.val; omega)

/-! ## From the blocks to the array -/

/-- WHAT A WRITE-BACK WRITES: at a point that writes the output block back (the last of a batch), the block is its
    block of the layer of the arrays as the region finds them. -/
theorem flushed_eq (c : Dev nD) (t : Fin cfg0.N) (hf : (cfg0.win 4).flush t = true) :
    (dats m 0 c).flushed 4 t = ((cfg0.win 4).blk t).view.read (Elt Ideal) (layer (Xarr m c) (Aarr m c) (Warr m c) (βarr m c)) := by
  have h3 : t.val % 4 = 3 := (flush0_4 t).mp hf
  obtain ⟨-, -, -, -, ⟨e0, e1, e2⟩⟩ := index_facts t
  show (cfg0.win 4).cut (grid0.coords t) ((dats m 0 c).after 4 t) = _
  rw [after_o]
  funext j
  obtain ⟨u, n, f, rfl⟩ : ∃ (u : Fin 1) (n : Fin 2048) (f : Fin 128), j = ix3 u n f := ⟨j 0, j 1, j 2, eq_ix3 j⟩
  obtain rfl : u = 0 := Subsingleton.elim _ _
  show accAt m c t.val t.isLt (ix3 (0 : Fin 1) n f) = layer (Xarr m c) (Aarr m c) (Warr m c) (βarr m c) (((cfg0.win 4).blk t).view.emb (ix3 (0 : Fin 1) n f))
  have hemb : ((cfg0.win 4).blk t).view.emb (ix3 (0 : Fin 1) n f) = ix3 (batchOf t) n f := by
    funext a; apply Fin.ext
    match a with
    | ⟨0, _⟩ => show win0_4.index t (0 : Fin 3) * 1 + 1 * 0 = t.val / 4; omega
    | ⟨1, _⟩ => show win0_4.index t (1 : Fin 3) * 2048 + 1 * n.val = n.val; omega
    | ⟨2, _⟩ => show win0_4.index t (2 : Fin 3) * 128 + 1 * f.val = f.val; omega
  rw [hemb, layer_ix3]
  exact acc_last_apply m c t h3 n f

/-- An index of the result array is in point t's output block iff each coordinate is in the block's range. -/
theorem mem_out_blk (t : Fin cfg0.N) (i : S4x2048x128.Idx) :
    i ∈ ((cfg0.win 4).blk t).view.set ↔ ∀ a : Fin 3, win0_4.index t a * S1x2048x128.size a ≤ (i a).val ∧ (i a).val < win0_4.index t a * S1x2048x128.size a + S1x2048x128.size a := by
  show i ∈ ((View.whole main_v0).slice (win0_4.rect t)).set ↔ _
  rw [View.set_slice_whole, Rect.mem_set_unit]
  exact Iff.rfl

/-- Every index of the result array is in the block some write-back writes: batch b's at the point 4·b + 3. -/
theorem out_cover (i : S4x2048x128.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 128 := (i 2).isLt
  have hlt : 4 * (i 0).val + 3 < cfg0.N := by rw [show cfg0.N = 16 from N_0]; omega
  refine ⟨⟨4 * (i 0).val + 3, hlt⟩, (flush0_4 _).mpr (by show (4 * (i 0).val + 3) % 4 = 3; omega), ?_⟩
  obtain ⟨-, -, -, -, ⟨e0, e1, e2⟩⟩ := index_facts ⟨4 * (i 0).val + 3, hlt⟩
  have e0' : win0_4.index ⟨4 * (i 0).val + 3, hlt⟩ (0 : Fin 3) = (4 * (i 0).val + 3) / 4 := e0
  rw [mem_out_blk]
  intro a
  match a with
  | ⟨0, _⟩ => show win0_4.index ⟨4 * (i 0).val + 3, hlt⟩ (0 : Fin 3) * 1 ≤ (i 0).val ∧ (i 0).val < win0_4.index ⟨4 * (i 0).val + 3, hlt⟩ (0 : Fin 3) * 1 + 1; omega
  | ⟨1, _⟩ => show win0_4.index ⟨4 * (i 0).val + 3, hlt⟩ (1 : Fin 3) * 2048 ≤ (i 1).val ∧ (i 1).val < win0_4.index ⟨4 * (i 0).val + 3, hlt⟩ (1 : Fin 3) * 2048 + 2048; omega
  | ⟨2, _⟩ => show win0_4.index ⟨4 * (i 0).val + 3, hlt⟩ (2 : Fin 3) * 128 ≤ (i 2).val ∧ (i 2).val < win0_4.index ⟨4 * (i 0).val + 3, hlt⟩ (2 : Fin 3) * 128 + 128; omega

/-- THE RESULT ARRAY after the run: the layer of the argument arrays. -/
theorem final_out (c : Dev nD) :
    (dats m 0 c).arrAt 4 cfg0.N = layer (m ((c.tc : Thread nD τ).loc main_arg0)) (m ((c.tc : Thread nD τ).loc main_arg1)) (m ((c.tc : Thread nD τ).loc main_arg2)) (m ((c.tc : Thread nD τ).loc main_arg3)) := by
  have h := (dats m 0 c).arrAt_eq_of_cover 4 (layer (Xarr m c) (Aarr m c) (Warr m c) (βarr m c)) (fun t hf => flushed_eq m c t hf) out_cover
  rw [h]
  show layer (V m c main_arg0) (V m c main_arg1) (V m c main_arg2) (V m c main_arg3) = _
  rw [V_main_arg0, V_main_arg1, V_main_arg2, V_main_arg3]

/-! ## The run, read -/

/-- Every weakly fair execution of the idealized kernel's program terminates with its result array at the layer of
    the argument arrays, the arguments unchanged. -/
theorem run_layer : θ_run defs (onTc (τ := τ) (main (F := Ideal))) ⟨m, fun _ => 0, ρ⟩ fun r => ∀ c : Dev nD,
      r.2.mem ((c.tc : Thread nD τ).loc main_v0) = layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final_out m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.Body

end
-- ==== Proof.RefIsSpec.lean ====
/-
  The reference computes the layer. Its program is five host operations: the features times the weights (a
  contraction over the 128 input features), the adjacency against that product (batched over b, contracting the ROW
  index m of both: the transposed adjacency), the bias broadcast to the result's shape, and the sum. Read at an index
  (b, n, f), at the ideal values, each contraction is a plain sum, and the whole is
      ( Σ_m A[b, m, n] · ( Σ_d X[b, m, d] · W[d, f] ) ) + β[f] :
  the specification's function, coordinate by coordinate.
-/
import proofs.«146435_g62397284876833_cont_9to1c4b_236_5_alg».proof.Proof.Gen.ReferenceIdeal.Run
import proofs.«146435_g62397284876833_cont_9to1c4b_236_5_alg».proof.Proof.Gen.ReferenceIdeal.Read
import proofs.«146435_g62397284876833_cont_9to1c4b_236_5_alg».proof.Proof.GcnSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Cert.GcnSpec

/-- The last stage of the reference, as a function of the four argument arrays, is the layer. -/
theorem stage_is_layer (X : (⟨S4x2048x128, .f32⟩ : BufTy).Contents (Elt Ideal)) (A : (⟨S4x2048x2048, .f32⟩ : BufTy).Contents (Elt Ideal))
    (W : (⟨S128x128, .f32⟩ : BufTy).Contents (Elt Ideal)) (β : (⟨S128, .f32⟩ : BufTy).Contents (Elt Ideal)) :
    val_main_v4 (F := Ideal) X A W β = layer X A W β := by
  funext i
  rw [val_main_v4_apply, val_main_v1_apply, val_main_v3_apply, val_main_v2_apply]
  simp only [val_main_v0_apply]
  -- the adjacency's entry (b, m, n), the feature entry (b, m, d), the weight entry (d, f), the bias entry f
  have eA : ∀ k : Fin 2048, lidx_main_v1 i k = ix3 (⟨(i 0).val, (i 0).isLt⟩ : Fin 4) k (⟨(i 1).val, (i 1).isLt⟩ : Fin 2048) :=
    fun k => funext fun a => by match a with | ⟨0, _⟩ => rfl | ⟨1, _⟩ => rfl | ⟨2, _⟩ => rfl
  have eX : ∀ (k : Fin 2048) (d : Fin 128), lidx_main_v0 (ridx_main_v1 i k) d = ix3 (⟨(i 0).val, (i 0).isLt⟩ : Fin 4) k d :=
    fun k d => funext fun a => by match a with | ⟨0, _⟩ => rfl | ⟨1, _⟩ => rfl | ⟨2, _⟩ => rfl
  have eW : ∀ (k : Fin 2048) (d : Fin 128), ridx_main_v0 (ridx_main_v1 i k) d = ix2 d (⟨(i 2).val, (i 2).isLt⟩ : Fin 128) :=
    fun k d => funext fun a => by match a with | ⟨0, _⟩ => rfl | ⟨1, _⟩ => rfl
  have eβ : idx_main_v2 (idx_main_v3 i) = ix1 (⟨(i 2).val, (i 2).isLt⟩ : Fin 128) :=
    funext fun a => by match a with | ⟨0, _⟩ => rfl
  simp only [eA, eX, eW, eβ]
  rfl

/-- The reference's run: every weakly fair execution terminates with its result at the layer of the argument arrays,
    the arguments unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
          = layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (val_main_v4_eq _ _ _ _)).trans (stage_is_layer _ _ _ _), (h c).2⟩)
    (Cert.ReferenceIdeal.Value.run (F := Ideal) m ρ)

end Cert.ReferenceIdeal.RefValue

end
-- ==== Proof.lean ====
/-
  The certificate of the graph-convolution kernel against its reference:
      out[b] = adj[b]ᵀ · (x[b] · W) + bias      for b = 0 … 3,   x : [4, 2048, 128], adj : [4, 2048, 2048], W : [128, 128].

  The kernel walks each batch's 2048 rows in four blocks of 512 on a 4 x 4 grid, keeps the batch's 2048 x 128 output block
  in one staging buffer over the four points (stored whole at the first block with the bias added, added to at the later
  ones), and writes it back once; the reference contracts over all 2048 rows at once and adds the bias last. Over the
  extended reals the two are the same function of the arguments: the sum over the rows splits into the four blocks' sums,
  and the bias may be added first or last (addition is commutative and associative there; no finiteness is used).

  The frames of the two kernel programs are one text, generic in the float instance (the body's triple at a first and at a
  later row block, the output block's contents point by point, the body obligation, the frame run); the reference's
  frame and value are its run read back. The idealization rewrote nothing, so `preserves` is trivial.
-/
import proofs.«146435_g62397284876833_cont_9to1c4b_236_5_alg».proof.Defs
import proofs.«146435_g62397284876833_cont_9to1c4b_236_5_alg».proof.Proof.BitsLaunch
import proofs.«146435_g62397284876833_cont_9to1c4b_236_5_alg».proof.Proof.IdealLaunch
import proofs.«146435_g62397284876833_cont_9to1c4b_236_5_alg».proof.Proof.IdealArray
import proofs.«146435_g62397284876833_cont_9to1c4b_236_5_alg».proof.Proof.RefIsSpec
import proofs.«146435_g62397284876833_cont_9to1c4b_236_5_alg».proof.Proof.Gen.Kernel
import proofs.«146435_g62397284876833_cont_9to1c4b_236_5_alg».proof.Proof.Gen.KernelIdeal
import proofs.«146435_g62397284876833_cont_9to1c4b_236_5_alg».proof.Proof.Gen.ReferenceIdeal
import proofs.«146435_g62397284876833_cont_9to1c4b_236_5_alg».proof.Proof.Gen.Pre_finite_inputs

noncomputable section

namespace Cert.Proof

open Idealize.ShloMosaic Idealize.SL.Sem

/-- The word-level kernel's program runs to the end and leaves its arguments unchanged. -/
theorem frame_kernel : Cert.frame_Kernel := fun m ρ _ => Cert.Kernel.Body.frame (F := Bits) m ρ

/-- So does the idealized kernel's. -/
theorem frame_kernelIdeal : Cert.frame_KernelIdeal := fun m ρ _ => Cert.KernelIdeal.Body.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the layer of those arguments. -/
theorem algebraic : Cert.algebraic_KernelIdeal_ReferenceIdeal := by
  intro m ρ m' ρ' _ hagree
  refine ⟨_, Cert.KernelIdeal.Body.run_layer m ρ, ?_⟩
  refine (θ_run Cert.ReferenceIdeal.defs _ _).mono (fun _ h c => ⟨(h c).1.trans ?_, (h c).2⟩)
    (Cert.ReferenceIdeal.RefValue.run_layer m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
